-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x384 : Shape := ⟨2, ![128, 384]⟩
abbrev S384 : Shape := ⟨1, ![384]⟩
abbrev S384x256 : Shape := ⟨2, ![384, 256]⟩
abbrev S256 : Shape := ⟨1, ![256]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S384x256 1) : IVec S_ 1 :=
  let main_c_5 : IVec S_ 1 := constantI S_ 1 1#1
  let main_v17 : IVec S_ 1 := (fun x v => Host.reduce IntOp.andi x v reducesTo_S384x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x128 .f32) (main_arg1 : FVec F S128x384 .f32) (main_arg2 : FVec F S384 .f32) (main_arg3 : FVec F S384x256 .f32) (main_arg4 : FVec F S256 .f32) (main_arg5 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x384 .f32 := Host.absf main_arg1
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x256 .f32 := Host.absf main_arg3
  let main_cst_4 : FVec F S_ .f32 := constant S_ .f32 0x7F800000#32
  let main_v15 : FVec F S384x256 .f32 := broadcastInDim S384x256 ![] bcast_S_S384x256 main_cst_4
  let main_v16 : IVec S384x256 1 := cmpf .olt main_v14 main_v15
  fn_part1 (F := F) main_arg4 main_v13 main_v16
-- ==== Kernel.lean ====
abbrev S50000x128 : Shape := ⟨2, ![50000, 128]⟩
abbrev S128x384 : Shape := ⟨2, ![128, 384]⟩
abbrev S384 : Shape := ⟨1, ![384]⟩
abbrev S384x256 : Shape := ⟨2, ![384, 256]⟩
abbrev S256 : Shape := ⟨1, ![256]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x384 : Shape := ⟨2, ![50000, 384]⟩
abbrev S2000x128 : Shape := ⟨2, ![2000, 128]⟩
abbrev S2000x384 : Shape := ⟨2, ![2000, 384]⟩
abbrev S1x384 : Shape := ⟨2, ![1, 384]⟩
abbrev S50000x256 : Shape := ⟨2, ![50000, 256]⟩
abbrev S2000x256 : Shape := ⟨2, ![2000, 256]⟩
abbrev S800000x256 : Shape := ⟨2, ![800000, 256]⟩
abbrev S1x256 : Shape := ⟨2, ![1, 256]⟩
abbrev S50000x16x16 : Shape := ⟨3, ![50000, 16, 16]⟩

abbrev nBuf : Space → Nat
  | .hbm => 78
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S128x384, .f32⟩
  | .hbm, ⟨2, _⟩ => ⟨S384, .f32⟩
  | .hbm, ⟨3, _⟩ => ⟨S384x256, .f32⟩
  | .hbm, ⟨4, _⟩ => ⟨S256, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S50000x384, .f32⟩
  | .hbm, ⟨54, _⟩ => ⟨S50000x256, .f32⟩
  | .hbm, ⟨55, _⟩ => ⟨S50000x1, .f32⟩
  | .hbm, ⟨56, _⟩ => ⟨S50000x256, .f32⟩
  | .hbm, ⟨57, _⟩ => ⟨S50000x256, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x256, .f32⟩
  | .hbm, ⟨67, _⟩ => ⟨S_, .f32⟩
  | .hbm, ⟨68, _⟩ => ⟨S50000x256, .f32⟩
  | .hbm, ⟨69, _⟩ => ⟨S800000x1, .i32⟩
  | .hbm, ⟨70, _⟩ => ⟨S50000x256, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S1x256, .f32⟩
  | .hbm, ⟨75, _⟩ => ⟨S50000x256, .f32⟩
  | .hbm, ⟨76, _⟩ => ⟨S50000x256, .f32⟩
  | .hbm, ⟨77, _⟩ => ⟨S50000x16x16, .f32⟩
  | .local _ .vmem, ⟨0, _⟩ => ⟨S2000x128, .f32⟩
  | .local _ .vmem, ⟨1, _⟩ => ⟨S2000x128, .f32⟩
  | .local _ .vmem, ⟨2, _⟩ => ⟨S128x384, .f32⟩
  | .local _ .vmem, ⟨3, _⟩ => ⟨S384, .f32⟩
  | .local _ .vmem, ⟨4, _⟩ => ⟨S2000x384, .f32⟩
  | .local _ .vmem, ⟨5, _⟩ => ⟨S2000x384, .f32⟩
  | .local _ .vmem, ⟨6, _⟩ => ⟨S2000x384, .f32⟩
  | .local _ .vmem, ⟨7, _⟩ => ⟨S2000x384, .f32⟩
  | .local _ .vmem, ⟨8, _⟩ => ⟨S384x256, .f32⟩
  | .local _ .vmem, ⟨9, _⟩ => ⟨S2000x256, .f32⟩
  | .local _ .vmem, ⟨10, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x256_S384x256_0_0 : ∀ a, (![0, 0] : Fin 2 → Nat) a + S384x256.size a ≤ S384x256.size a
  h_S384x256 : 0 < S384x256.numel
  inb_S2000x256_S2000x256_0_0 : ∀ a, (![0, 0] : Fin 2 → Nat) a + S2000x256.size a ≤ S2000x256.size a
  h_S2000x256 : 0 < S2000x256.numel
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S50000x256_S50000x16x16 : S50000x256.ShapeCasts S50000x16x16
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x384_S2000x384_1_0_0_1_n_n_wf : DotDims.WF S2000x128 S128x384 S2000x384 [1] [0] [0] [1] [] []
  dot_S2000x384_S384x256_S2000x256_1_0_0_1_n_n_wf : DotDims.WF S2000x384 S384x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384.size a ≤ S384.size a
  hwx0_2 : ∀ i : grid0.Coords, EltTy.bits .f32 = 32 ∨ (Rect.block (s := S384) S384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x384.size a ≤ S50000x384.size a
  hwx0_3 : ∀ i : grid0.Coords, EltTy.bits .f32 = 32 ∨ (Rect.block (s := S50000x384) S2000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S50000x384.size a
  hwx1_0 : ∀ i : grid1.Coords, EltTy.bits .f32 = 32 ∨ (Rect.block (s := S50000x384) S2000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x256.size a ≤ S384x256.size a
  hwx1_1 : ∀ i : grid1.Coords, EltTy.bits .f32 = 32 ∨ (Rect.block (s := S384x256) S384x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x384_S384x256_S2000x256_1_0_0_1_n_n : DotDims S2000x384 S384x256 S2000x256 where
  lhsContracting := [1]
  rhsContracting := [0]
  lhsNonContracting := [0]
  rhsNonContracting := [1]
  lhsBatch := []
  rhsBatch := []
  wf := dot_S2000x384_S384x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_v32) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S384x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x384 : Shape := ⟨2, ![128, 384]⟩
abbrev S384 : Shape := ⟨1, ![384]⟩
abbrev S384x256 : Shape := ⟨2, ![384, 256]⟩
abbrev S256 : Shape := ⟨1, ![256]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x384 : Shape := ⟨2, ![50000, 384]⟩
abbrev S1x384 : Shape := ⟨2, ![1, 384]⟩
abbrev S50000x256 : Shape := ⟨2, ![50000, 256]⟩
abbrev S800000x256 : Shape := ⟨2, ![800000, 256]⟩
abbrev S1x256 : Shape := ⟨2, ![1, 256]⟩
abbrev S50000x16x16 : Shape := ⟨3, ![50000, 16, 16]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x384, .f32⟩
  | .hbm, ⟨2, _⟩ => ⟨S384, .f32⟩
  | .hbm, ⟨3, _⟩ => ⟨S384x256, .f32⟩
  | .hbm, ⟨4, _⟩ => ⟨S256, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S50000x384, .f32⟩
  | .hbm, ⟨54, _⟩ => ⟨S1x384, .f32⟩
  | .hbm, ⟨55, _⟩ => ⟨S50000x384, .f32⟩
  | .hbm, ⟨56, _⟩ => ⟨S50000x384, .f32⟩
  | .hbm, ⟨57, _⟩ => ⟨S_, .f32⟩
  | .hbm, ⟨58, _⟩ => ⟨S50000x384, .f32⟩
  | .hbm, ⟨59, _⟩ => ⟨S50000x384, .f32⟩
  | .hbm, ⟨60, _⟩ => ⟨S50000x256, .f32⟩
  | .hbm, ⟨61, _⟩ => ⟨S50000x1, .f32⟩
  | .hbm, ⟨62, _⟩ => ⟨S50000x256, .f32⟩
  | .hbm, ⟨63, _⟩ => ⟨S50000x256, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x256, .f32⟩
  | .hbm, ⟨73, _⟩ => ⟨S_, .f32⟩
  | .hbm, ⟨74, _⟩ => ⟨S50000x256, .f32⟩
  | .hbm, ⟨75, _⟩ => ⟨S800000x1, .i32⟩
  | .hbm, ⟨76, _⟩ => ⟨S50000x256, .f32⟩
  | .hbm, ⟨77, _⟩ => ⟨S50000x1, .f32⟩
  | .hbm, ⟨78, _⟩ => ⟨S50000x256, .f32⟩
  | .hbm, ⟨79, _⟩ => ⟨S50000x256, .f32⟩
  | .hbm, ⟨80, _⟩ => ⟨S1x256, .f32⟩
  | .hbm, ⟨81, _⟩ => ⟨S50000x256, .f32⟩
  | .hbm, ⟨82, _⟩ => ⟨S50000x256, .f32⟩
  | .hbm, ⟨83, _⟩ => ⟨S50000x16x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call2_cst : Ref sig .tc := ⟨.hbm, 57, rfl⟩
abbrev main_call2_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  bcast_S_S50000x384 : S_.BroadcastsInDim S50000x384 (![] : Fin 0 → Fin S50000x384.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S50000x256_S50000x16x16 : S50000x256.ShapeCasts S50000x16x16
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x384_S50000x384_1_0_0_1_n_n_wf : DotDims.WF S50000x128 S128x384 S50000x384 [1] [0] [0] [1] [] []
  dot_S50000x384_S384x256_S50000x256_1_0_0_1_n_n_wf : DotDims.WF S50000x384 S384x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def dot_S50000x384_S384x256_S50000x256_1_0_0_1_n_n : DotDims S50000x384 S384x256 S50000x256 where
  lhsContracting := [1]
  rhsContracting := [0]
  lhsNonContracting := [0]
  rhsNonContracting := [1]
  lhsBatch := []
  rhsBatch := []
  wf := dot_S50000x384_S384x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.HostFns.lean ====
/-
  The host side of the network, shared word for word by the kernel program and the reference: the graph normalisation
  and the neighbourhood aggregation, as functions of whole arrays at any float instance.

  `edge_index` is a 2 × 800000 array of node numbers; row 0 lists each edge's source, row 1 its destination
  (`sources`, `targets`). `degree e` counts, per node, the edges whose listed end is that node (a scatter-add of ones
  into 50000 zeros), and `invSqrtDegree e` is `max(1, degree)^(-1/2)`. `aggregate` is the normalised adjacency applied
  to a 50000 × d feature array: scale row v by the source-side factor of v, gather the scaled row of each edge's
  source (a negative node number is first moved up by 50000), scatter-add the gathered rows at the edges'
  destinations, and scale row v of the sums by the destination-side factor of v. It is stated at the two widths
  the network uses, 128 and 256. `finish` aggregates the second dense layer's output, adds the last bias along the
  columns and lays the 256 columns out as 16 × 16.
-/
import proofs.«103360_j41867341201760_1_alg».proof.KernelIdeal

noncomputable section

namespace Cert.KernelIdeal.Hand

open Cert.KernelIdeal Cert.KernelIdeal.Facts₀ Idealize.ShloMosaic

variable {F : FTy → Type} [FloatOps F] [Cert.KernelIdeal.Facts₀]

/-- The edges' source nodes: row 0 of the edge array. -/
def sources (e : IVec S2x800000 32) : IVec S800000 32 :=
  shapeCast _ (extractStridedSlice S1x800000 ![0, 0] e slices_S2x800000_S1x800000_0_0) shapeCasts_S1x800000_S800000

/-- The edges' destination nodes: row 1 of the edge array. -/
def targets (e : IVec S2x800000 32) : IVec S800000 32 :=
  shapeCast _ (extractStridedSlice S1x800000 ![1, 0] e slices_S2x800000_S1x800000_1_0) shapeCasts_S1x800000_S800000

/-- How many of the listed edge ends each node is: ones scatter-added into zeros. -/
def degree (ends : IVec S800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 ends)
    (broadcastInDim S800000 ![] bcast_S_S800000 (constant S_ .f32 0x3F800000#32))

/-- The normalisation factor of each node: its degree, at least one, to the power −1/2. -/
def invSqrtDegree (ends : IVec S800000 32) : FVec F S50000 .f32 :=
  Host.powf (maximumf (broadcastInDim S50000 ![] bcast_S_S50000 (id (constant S_ .f32 0x3F800000#32))) (degree ends))
    (broadcastInDim S50000 ![] bcast_S_S50000 (constant S_ .f32 0xBF000000#32))

/-- A node number read as an index from the end when negative: 50000 is added to it. -/
def fromEnd (node : IVec S800000 32) : IVec S800000 32 :=
  select (cmpi .slt node (broadcastInDim S800000 ![] bcast_S_S800000 (constantI S_ 32 0#32)))
    (addi node (broadcastInDim S800000 ![] bcast_S_S800000 (constantI S_ 32 50000#32))) node

/-- The normalised adjacency applied to 128 feature columns. -/
def aggregate128 (x : FVec F S50000x128 .f32) (outF inF : FVec F S50000 .f32) (src dst : IVec S800000 32) : FVec F S50000x128 .f32 :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128
        (mulf x (broadcastInDim S50000x128 ![0, 1] bcast_S50000x1_S50000x128_0_1 (broadcastInDim S50000x1 ![0] bcast_S50000_S50000x1_0 outF)))
        (broadcastInDim S800000x1 ![0] bcast_S800000_S800000x1_0 (fromEnd src))))
    (broadcastInDim S50000x128 ![0, 1] bcast_S50000x1_S50000x128_0_1 (broadcastInDim S50000x1 ![0] bcast_S50000_S50000x1_0 inF))

/-- The normalised adjacency applied to 256 feature columns. -/
def aggregate256 (y : FVec F S50000x256 .f32) (outF inF : FVec F S50000 .f32) (src dst : IVec S800000 32) : FVec F S50000x256 .f32 :=
  mulf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst)
      (Host.gather gather_S50000x256_S800000x1_S800000x256_1_0_n_n_0_1_1256
        (mulf y (broadcastInDim S50000x256 ![0, 1] bcast_S50000x1_S50000x256_0_1 (broadcastInDim S50000x1 ![0] bcast_S50000_S50000x1_0 outF)))
        (broadcastInDim S800000x1 ![0] bcast_S800000_S800000x1_0 (fromEnd src))))
    (broadcastInDim S50000x256 ![0, 1] bcast_S50000x1_S50000x256_0_1 (broadcastInDim S50000x1 ![0] bcast_S50000_S50000x1_0 inF))

/-- The network's last steps on the second dense layer's output: aggregate, add the bias along the columns, and lay
    the 256 columns out as 16 × 16. -/
def finish (y : FVec F S50000x256 .f32) (outF inF : FVec F S50000 .f32) (src dst : IVec S800000 32) (b : FVec F S256 .f32) :
    FVec F S50000x16x16 .f32 :=
  shapeCast S50000x16x16
    (addf (aggregate256 y outF inF src dst)
      (broadcastInDim S50000x256 ![0, 1] bcast_S1x256_S50000x256_0_1 (broadcastInDim S1x256 ![1] bcast_S256_S1x256_1 b)))
    shapeCasts_S50000x256_S50000x16x16

end Cert.KernelIdeal.Hand

end
-- ==== Proof.KHost.lean ====
/-
  The kernel program's host side, read: what the buffers hold at the boundaries between the program's segments.

  The program runs five stretches of host operations (the graph normalisation and the first aggregation), the two
  kernel regions (the dense layers) and a last stretch (the second aggregation, the bias, the 16 × 16 layout). The
  generated frame names the contents at each boundary; here each buffer the value depends on is read back to a
  function of the launch memory: the edge lists, the two normalisation factors and the first aggregation before the
  regions, and after them the result as `finish` of the second region's output.
-/
import proofs.«103360_j41867341201760_1_alg».proof.Proof.Gen.KernelIdeal.Frame
import proofs.«103360_j41867341201760_1_alg».proof.Proof.HostFns
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the regions: the result from the second region's output -/

set_option maxHeartbeats 8000000 in
/-- The result buffer at the return: the last stretch's operations composed are `finish` of what the buffers it reads
    held when the second region ended. -/
theorem result_of_last_boundary (c : Dev nD) :
    W8 m ρ c (Proc.devRef .tc main_v54)
      = finish (W7 m ρ c (Proc.devRef .tc main_v34)) (W7 m ρ c (Proc.devRef .tc main_v13)) (W7 m ρ c (Proc.devRef .tc main_v16))
          (W7 m ρ c (Proc.devRef .tc main_v1)) (W7 m ρ c (Proc.devRef .tc main_v3)) (W7 m ρ c (Proc.devRef .tc main_arg4)) := by
  show StableHlo.after hostOps2 (W7 m ρ c) (Proc.devRef .tc main_v54) = _
  dsimp only [hostOps2]
  after_results_simp
  rfl

/-! ## Before the regions: the first region's entry contents -/

set_option maxHeartbeats 16000000 in
/-- The first region's input array at its entry: the first aggregation of the features. -/
theorem entry_v32 (c : Dev nD) :
    W5 m ρ c (Proc.devRef .tc main_v32)
      = aggregate128 (m ((c : Thread nD τ).loc main_arg0)) (invSqrtDegree (sources (m ((c : Thread nD τ).loc main_arg5))))
          (invSqrtDegree (targets (m ((c : Thread nD τ).loc main_arg5)))) (sources (m ((c : Thread nD τ).loc main_arg5)))
          (targets (m ((c : Thread nD τ).loc main_arg5))) := by
  dsimp only [W5, W4, W3, W2, W1, hostOps0_4, hostOps0_3, hostOps0_2, hostOps0_1, hostOps0]
  after_results_simp
  rfl

set_option maxHeartbeats 8000000 in
theorem entry_v13 (c : Dev nD) :
    W5 m ρ c (Proc.devRef .tc main_v13) = invSqrtDegree (sources (m ((c : Thread nD τ).loc main_arg5))) := by
  dsimp only [W5, W4, W3, W2, W1, hostOps0_4, hostOps0_3, hostOps0_2, hostOps0_1, hostOps0]
  after_results_simp
  rfl

set_option maxHeartbeats 8000000 in
theorem entry_v16 (c : Dev nD) :
    W5 m ρ c (Proc.devRef .tc main_v16) = invSqrtDegree (targets (m ((c : Thread nD τ).loc main_arg5))) := by
  dsimp only [W5, W4, W3, W2, W1, hostOps0_4, hostOps0_3, hostOps0_2, hostOps0_1, hostOps0]
  after_results_simp
  rfl

set_option maxHeartbeats 8000000 in
theorem entry_v1 (c : Dev nD) :
    W5 m ρ c (Proc.devRef .tc main_v1) = sources (m ((c : Thread nD τ).loc main_arg5)) := by
  dsimp only [W5, W4, W3, W2, W1, hostOps0_4, hostOps0_3, hostOps0_2, hostOps0_1, hostOps0]
  after_results_simp
  rfl

set_option maxHeartbeats 8000000 in
theorem entry_v3 (c : Dev nD) :
    W5 m ρ c (Proc.devRef .tc main_v3) = targets (m ((c : Thread nD τ).loc main_arg5)) := by
  dsimp only [W5, W4, W3, W2, W1, hostOps0_4, hostOps0_3, hostOps0_2, hostOps0_1, hostOps0]
  after_results_simp
  rfl

set_option maxHeartbeats 8000000 in
/-- No host operation before the regions writes an argument. -/
theorem entry_arg1 (c : Dev nD) : W5 m ρ c (Proc.devRef .tc main_arg1) = m ((c : Thread nD τ).loc main_arg1) := by
  dsimp only [W5, W4, W3, W2, W1, hostOps0_4, hostOps0_3, hostOps0_2, hostOps0_1, hostOps0]
  after_results_simp
set_option maxHeartbeats 8000000 in
theorem entry_arg2 (c : Dev nD) : W5 m ρ c (Proc.devRef .tc main_arg2) = m ((c : Thread nD τ).loc main_arg2) := by
  dsimp only [W5, W4, W3, W2, W1, hostOps0_4, hostOps0_3, hostOps0_2, hostOps0_1, hostOps0]
  after_results_simp
set_option maxHeartbeats 8000000 in
theorem entry_arg3 (c : Dev nD) : W5 m ρ c (Proc.devRef .tc main_arg3) = m ((c : Thread nD τ).loc main_arg3) := by
  dsimp only [W5, W4, W3, W2, W1, hostOps0_4, hostOps0_3, hostOps0_2, hostOps0_1, hostOps0]
  after_results_simp
set_option maxHeartbeats 8000000 in
theorem entry_arg4 (c : Dev nD) : W5 m ρ c (Proc.devRef .tc main_arg4) = m ((c : Thread nD τ).loc main_arg4) := by
  dsimp only [W5, W4, W3, W2, W1, hostOps0_4, hostOps0_3, hostOps0_2, hostOps0_1, hostOps0]
  after_results_simp

/-! ## Through the regions: a buffer that is no window's array keeps its contents -/

/-- A buffer that is an array of neither region holds at the second region's exit what it held at the first's entry. -/
theorem through_regions (c : Dev nD) (b : Ref sig .tc) (h0 : ∀ w, Pipeline.arrRef spec0 w ≠ b) (h1 : ∀ w, Pipeline.arrRef spec1 w ≠ b) :
    W7 m ρ c (Proc.devRef .tc b) = W5 m ρ c (Proc.devRef .tc b) :=
  (W7_of_ne m ρ c b h1).trans (W6_of_ne m ρ c b h0)

theorem exit_v13 (c : Dev nD) : W7 m ρ c (Proc.devRef .tc main_v13) = invSqrtDegree (sources (m ((c : Thread nD τ).loc main_arg5))) :=
  (through_regions m ρ c main_v13 (by decide) (by decide)).trans (entry_v13 m ρ c)
theorem exit_v16 (c : Dev nD) : W7 m ρ c (Proc.devRef .tc main_v16) = invSqrtDegree (targets (m ((c : Thread nD τ).loc main_arg5))) :=
  (through_regions m ρ c main_v16 (by decide) (by decide)).trans (entry_v16 m ρ c)
theorem exit_v1 (c : Dev nD) : W7 m ρ c (Proc.devRef .tc main_v1) = sources (m ((c : Thread nD τ).loc main_arg5)) :=
  (through_regions m ρ c main_v1 (by decide) (by decide)).trans (entry_v1 m ρ c)
theorem exit_v3 (c : Dev nD) : W7 m ρ c (Proc.devRef .tc main_v3) = targets (m ((c : Thread nD τ).loc main_arg5)) :=
  (through_regions m ρ c main_v3 (by decide) (by decide)).trans (entry_v3 m ρ c)
theorem exit_arg4 (c : Dev nD) : W7 m ρ c (Proc.devRef .tc main_arg4) = m ((c : Thread nD τ).loc main_arg4) :=
  (through_regions m ρ c main_arg4 (by decide) (by decide)).trans (entry_arg4 m ρ c)

/-- The second region's weights at its entry are the launch memory's: the first region does not write them. -/
theorem mid_arg3 (c : Dev nD) : W6 m ρ c (Proc.devRef .tc main_arg3) = m ((c : Thread nD τ).loc main_arg3) :=
  (W6_of_ne m ρ c main_arg3 (by decide)).trans (entry_arg3 m ρ c)

end Cert.KernelIdeal.Hand

end
-- ==== Proof.DenseSpec.lean ====
/-
  The two dense layers of the network, as functions of whole arrays over the extended reals.

  First layer (a matrix product, a bias along the columns, the rectifier):
      layer1 x w b [r, c] = max (∑ₖ x[r, k] · w[k, c] + b[c]) 0      x : 50000 × 128, w : 128 × 384, b : 384.
  Second layer (a matrix product):
      layer2 h w [r, c] = ∑ₖ h[r, k] · w[k, c]                        h : 50000 × 384, w : 384 × 256.

  An entry of either result depends on ONE row of the left operand only. `unit1` and `unit2` are that dependence: an
  output entry from a row (a function of the contraction index) and a column number. A block of consecutive rows of the
  result is therefore the same function of the same block of rows of the left operand, which is how a row-tiled
  computation and the whole-array one meet.
-/
import Idealize.ShloMosaic.PureOps.Ideal
import Idealize.ShloMosaic.Lib.ValueIdx

noncomputable section

namespace Cert.Dense

open Idealize.ShloMosaic Idealize.ShloMosaic.ValueIdx

/-- Entry `q` of a row of the first layer: the row times column `q` of the weights, plus the bias there, rectified.
    The rectifier's zero is kept as the float word both programs print. -/
def unit1 (row : Fin 128 → EReal) (w : FVec Ideal ⟨2, ![128, 384]⟩ .f32) (b : FVec Ideal ⟨1, ![384]⟩ .f32) (q : Fin 384) : EReal :=
  max ((∑ k : Fin 128, row k * w (ix2 k q)) + b (ix1 q)) (Ideal.ofBits .f32 0x00000000#32)

/-- Entry `q` of a row of the second layer: the row times column `q` of the weights. -/
def unit2 (row : Fin 384 → EReal) (w : FVec Ideal ⟨2, ![384, 256]⟩ .f32) (q : Fin 256) : EReal :=
  ∑ k : Fin 384, row k * w (ix2 k q)

/-- The first layer on the whole arrays. -/
def layer1 (x : FVec Ideal ⟨2, ![50000, 128]⟩ .f32) (w : FVec Ideal ⟨2, ![128, 384]⟩ .f32) (b : FVec Ideal ⟨1, ![384]⟩ .f32) :
    FVec Ideal ⟨2, ![50000, 384]⟩ .f32 :=
  fun i => unit1 (fun k => x (ix2 (i 0) k)) w b (i 1)

/-- The second layer on the whole arrays. -/
def layer2 (h : FVec Ideal ⟨2, ![50000, 384]⟩ .f32) (w : FVec Ideal ⟨2, ![384, 256]⟩ .f32) :
    FVec Ideal ⟨2, ![50000, 256]⟩ .f32 :=
  fun i => unit2 (fun k => h (ix2 (i 0) k)) w (i 1)

theorem layer1_apply (x : FVec Ideal ⟨2, ![50000, 128]⟩ .f32) (w : FVec Ideal ⟨2, ![128, 384]⟩ .f32) (b : FVec Ideal ⟨1, ![384]⟩ .f32)
    (p : Fin 50000) (q : Fin 384) : layer1 x w b (ix2 p q) = unit1 (fun k => x (ix2 p k)) w b q := rfl

theorem layer2_apply (h : FVec Ideal ⟨2, ![50000, 384]⟩ .f32) (w : FVec Ideal ⟨2, ![384, 256]⟩ .f32)
    (p : Fin 50000) (q : Fin 256) : layer2 h w (ix2 p q) = unit2 (fun k => h (ix2 p k)) w q := rfl

end Cert.Dense

end
-- ==== Proof.KPayload.lean ====
/-
  What the two kernel bodies compute, entry by entry, at the extended reals.

  The first body loads a block of 2000 rows of the input, the weights and the bias, multiplies the block by the weights
  into a zero accumulator (the change of float format before the product is the identity on extended reals), adds the
  bias along the columns and takes the maximum with zero: entry (p, q) of what it stores is `Dense.unit1` of row p of the
  block. The second body multiplies its block of 2000 rows by its weights: entry (p, q) is `Dense.unit2` of row p.
-/
import proofs.«103360_j41867341201760_1_alg».proof.Proof.Gen.KernelIdeal.Skeleton
import proofs.«103360_j41867341201760_1_alg».proof.Proof.DenseSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The coordinates of the operands' indices in the two matrix products -/

theorem lhsA_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem lhsA_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem rhsA_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem rhsA_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

theorem lhsB_0 (i : S2000x256.Idx) (q : dot_S2000x384_S384x256_S2000x256_1_0_0_1_n_n.contr.Idx) :
    (dot_S2000x384_S384x256_S2000x256_1_0_0_1_n_n.lhsIdx i q 0).val = (i 0).val := by
  unfold DotDims.lhsIdx
  rw [dif_neg (show ¬(0 : Fin S2000x384.rank) ∈ dot_S2000x384_S384x256_S2000x256_1_0_0_1_n_n.lhsBatch by decide), dif_pos (show (0 : Fin S2000x384.rank) ∈ dot_S2000x384_S384x256_S2000x256_1_0_0_1_n_n.lhsNonContracting by decide)]
  rfl
theorem lhsB_1 (i : S2000x256.Idx) (q : dot_S2000x384_S384x256_S2000x256_1_0_0_1_n_n.contr.Idx) :
    (dot_S2000x384_S384x256_S2000x256_1_0_0_1_n_n.lhsIdx i q 1).val = (q ⟨0, by decide⟩).val :=
  dot_S2000x384_S384x256_S2000x256_1_0_0_1_n_n.lhsIdx_val_of_single rfl i q
theorem rhsB_0 (i : S2000x256.Idx) (q : dot_S2000x384_S384x256_S2000x256_1_0_0_1_n_n.contr.Idx) :
    (dot_S2000x384_S384x256_S2000x256_1_0_0_1_n_n.rhsIdx i q 0).val = (q ⟨0, by decide⟩).val :=
  dot_S2000x384_S384x256_S2000x256_1_0_0_1_n_n.rhsIdx_val_of_single rfl i q
theorem rhsB_1 (i : S2000x256.Idx) (q : dot_S2000x384_S384x256_S2000x256_1_0_0_1_n_n.contr.Idx) :
    (dot_S2000x384_S384x256_S2000x256_1_0_0_1_n_n.rhsIdx i q 1).val = (i 1).val := by
  unfold DotDims.rhsIdx
  rw [dif_neg (show ¬(1 : Fin S384x256.rank) ∈ dot_S2000x384_S384x256_S2000x256_1_0_0_1_n_n.rhsBatch by decide), dif_pos (show (1 : Fin S384x256.rank) ∈ dot_S2000x384_S384x256_S2000x256_1_0_0_1_n_n.rhsNonContracting by decide)]
  rfl

/-! ## The two products at an entry -/

/-- The block's matrix product into a zero accumulator, at row `p` and column `q`: the row of the left factor times the
    column of the right one, summed over the 128 contraction positions. -/
theorem matmulA_apply (l : FVec Ideal S2000x128 .bf16) (r : FVec Ideal S128x384 .bf16) (p : Fin 2000) (q : Fin 384) :
    matmul dot_S2000x128_S128x384_S2000x384_1_0_0_1_n_n none l r (constant S2000x384 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x384_S2000x384_1_0_0_1_n_n 128 rfl rfl).symm]
  refine Finset.sum_congr rfl fun k _ => ?_
  have hk := ValueIdx.contrEquiv1_symm_val dot_S2000x128_S128x384_S2000x384_1_0_0_1_n_n 128 rfl rfl k
  have el : dot_S2000x128_S128x384_S2000x384_1_0_0_1_n_n.lhsIdx (ix2 p q) ((ValueIdx.contrEquiv1 dot_S2000x128_S128x384_S2000x384_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x384_S2000x384_1_0_0_1_n_n.rhsIdx (ix2 p q) ((ValueIdx.contrEquiv1 dot_S2000x128_S128x384_S2000x384_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- The block's matrix product into a zero accumulator, at row `p` and column `q`: the row of the left factor times the
    column of the right one, summed over the 384 contraction positions. -/
theorem matmulB_apply (l : FVec Ideal S2000x384 .bf16) (r : FVec Ideal S384x256 .bf16) (p : Fin 2000) (q : Fin 256) :
    matmul dot_S2000x384_S384x256_S2000x256_1_0_0_1_n_n none l r (constant S2000x256 .f32 0x00000000#32) (ix2 p q)
      = ∑ k : Fin 384, l (ix2 p k) * r (ix2 k q) := by
  simp only [matmul]
  rw [Ideal.matmul_constant_zero_apply, ← Equiv.sum_comp (ValueIdx.contrEquiv1 dot_S2000x384_S384x256_S2000x256_1_0_0_1_n_n 384 rfl rfl).symm]
  refine Finset.sum_congr rfl fun k _ => ?_
  have hk := ValueIdx.contrEquiv1_symm_val dot_S2000x384_S384x256_S2000x256_1_0_0_1_n_n 384 rfl rfl k
  have el : dot_S2000x384_S384x256_S2000x256_1_0_0_1_n_n.lhsIdx (ix2 p q) ((ValueIdx.contrEquiv1 dot_S2000x384_S384x256_S2000x256_1_0_0_1_n_n 384 rfl rfl).symm k) = ix2 p k := funext fun a => Fin.ext (by
    match a with
    | ⟨0, _⟩ => exact lhsB_0 _ _
    | ⟨1, _⟩ => exact (lhsB_1 _ _).trans hk)
  have er : dot_S2000x384_S384x256_S2000x256_1_0_0_1_n_n.rhsIdx (ix2 p q) ((ValueIdx.contrEquiv1 dot_S2000x384_S384x256_S2000x256_1_0_0_1_n_n 384 rfl rfl).symm k) = ix2 k q := funext fun a => Fin.ext (by
    match a with
    | ⟨0, _⟩ => exact (rhsB_0 _ _).trans hk
    | ⟨1, _⟩ => exact rhsB_1 _ _)
  rw [el, er]

/-! ## The bodies' stored values at an entry -/

/-- Entry (p, q) of what the first body stores: the first layer's entry q of row p of the loaded block. -/
theorem pay_first (v0 : Vec Ideal S2000x128 .f32) (v3 : Vec Ideal S128x384 .f32) (v6 : Vec Ideal S384 .f32) (p : Fin 2000) (q : Fin 384) :
    k0_pay1 (F := Ideal) v0 v3 v6 (ix2 p q) = Cert.Dense.unit1 (fun k => v0 (ix2 p k)) v3 v6 q := by
  unfold k0_pay1 Cert.Dense.unit1
  rw [maximumf_apply, addf_apply, broadcast_apply, matmulA_apply, shapeCast_self]
  refine congrArg₂ max (congrArg₂ (· + ·) rfl ?_) rfl
  exact (broadcastTo_1b_ab_apply _ _ p q).trans (shapeCast_a_1a_apply v6 _ 0 q)

/-- Entry (p, q) of what the second body stores: the second layer's entry q of row p of the loaded block. -/
theorem pay_second (v0 : Vec Ideal S2000x384 .f32) (v3 : Vec Ideal S384x256 .f32) (p : Fin 2000) (q : Fin 256) :
    k1_pay1 (F := Ideal) v0 v3 (ix2 p q) = Cert.Dense.unit2 (fun k => v0 (ix2 p k)) v3 q := by
  unfold k1_pay1 Cert.Dense.unit2
  rw [matmulB_apply, shapeCast_self]
  rfl

end Cert.KernelIdeal.Hand

end
-- ==== Proof.KBlocksFirst.lean ====
/-
  The first kernel region, from blocks to the whole array.

  The region's grid has 25 points. At point t the pipeline fetches rows 2000·t … 2000·t + 1999 of the 50000 × 128 input
  (all of its 128 columns), the whole 128 × 384 weight matrix and the whole bias vector, and writes back rows
  2000·t … 2000·t + 1999 of the 50000 × 384 result. An entry of the first layer depends on one row of the input only,
  so what point t writes back is exactly block t of `Dense.layer1` of the arrays the region found; the 25 blocks tile
  the result (row r lies in block r / 2000), so the result array ends at `Dense.layer1` of them.
-/
import proofs.«103360_j41867341201760_1_alg».proof.Proof.Gen.KernelIdeal.Frame
import proofs.«103360_j41867341201760_1_alg».proof.Proof.KPayload
import Idealize.ShloMosaic.Lib.Pipeline.Value

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/- The buffer contents when the region is entered: a parameter, as in the region's generated frame. -/
variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a; rfl

/-- The block numbers of the four windows at a grid point: the input and the result move down the rows with the point,
    the weights and the bias stay. Decided over the 25 points. -/
theorem blockno_first : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Row `p` of a block whose rows are rows of the input array, the weights and bias being the arrays': the body's
    stored entry (p, q) is the first layer's entry at that row of the array. -/
theorem rows_first (x : FVec Ideal S50000x128 .f32) (w : FVec Ideal S128x384 .f32) (b : FVec Ideal S384 .f32)
    (x0 : Vec Ideal S2000x128 .f32) (x1 : Vec Ideal S128x384 .f32) (x2 : Vec Ideal S384 .f32)
    (P : Fin 50000) (p : Fin 2000) (q : Fin 384)
    (h0 : ∀ k : Fin 128, x0 (ix2 p k) = x (ix2 P k)) (h1 : x1 = w) (h2 : x2 = b) :
    k0_pay1 (F := Ideal) x0 x1 x2 (ix2 p q) = Cert.Dense.layer1 x w b (ix2 P q) := by
  rw [pay_first, Cert.Dense.layer1_apply, h1, h2]
  exact congrArg (fun row => Cert.Dense.unit1 row w b q) (funext h0)

/-- What point `t` writes back is block `t` of the first layer of the arrays the region found. -/
theorem flushed_first (c : Dev nD) (t : Fin cfg0.N) :
    (dat0 (F := Ideal) V c).flushed 3 t
      = ((cfg0.win 3).blk t).view.read (Elt Ideal) (Cert.Dense.layer1 (V c main_v32) (V c main_arg1) (V c main_arg2)) := by
  show (cfg0.win 3).cut (grid0.coords t) ((dat0 V c).after 3 t) = _
  rw [after0_3]
  unfold out0_3
  rw [View.canon_unit_zero zero_off2]
  simp only [View.ld_unit_zero (S := S2000x128) zero_off2, View.ld_unit_zero (S := S128x384) zero_off2, View.ld_unit_zero (S := S384) zero_off1]
  obtain ⟨e00, e01, e10, e11, e20, e30, e31⟩ := blockno_first t
  have ht : t.val < 25 := Nat.lt_of_lt_of_eq t.isLt (show cfg0.N = 25 from N_0)
  funext j
  obtain ⟨p, q, rfl⟩ : ∃ (p : Fin 2000) (q : Fin 384), j = ix2 p q := ⟨j 0, j 1, eq_ix2 j⟩
  show k0_pay1 (F := Ideal) (iblk0 V c 0 t) (iblk0 V c 1 t) (iblk0 V c 2 t) (ix2 p q)
    = Cert.Dense.layer1 (V c main_v32) (V c main_arg1) (V c main_arg2) (((cfg0.win 3).blk t).view.emb (ix2 p q))
  have hP : t.val * 2000 + p.val < 50000 := by have := p.isLt; omega
  have hemb : ((cfg0.win 3).blk t).view.emb (ix2 p q) = ix2 (⟨t.val * 2000 + p.val, hP⟩ : Fin 50000) q := by
    funext a; apply Fin.ext
    match a with
    | ⟨0, _⟩ => show win0_3.index t (0 : Fin 2) * 2000 + 1 * p.val = t.val * 2000 + p.val; rw [e30]; omega
    | ⟨1, _⟩ => show win0_3.index t (1 : Fin 2) * 384 + 1 * q.val = q.val; rw [e31]; omega
  rw [hemb]
  refine rows_first (V c main_v32) (V c main_arg1) (V c main_arg2) (iblk0 V c 0 t) (iblk0 V c 1 t) (iblk0 V c 2 t) ⟨_, hP⟩ p q (fun k => ?_) ?_ ?_
  · show V c main_v32 (((cfg0.win 0).blk t).view.emb (ix2 p k)) = V c main_v32 (ix2 ⟨t.val * 2000 + p.val, hP⟩ k)
    refine congrArg (V c main_v32) (funext fun a => Fin.ext ?_)
    match a with
    | ⟨0, _⟩ => show win0_0.index t (0 : Fin 2) * 2000 + 1 * p.val = t.val * 2000 + p.val; rw [e00]; omega
    | ⟨1, _⟩ => show win0_0.index t (1 : Fin 2) * 128 + 1 * k.val = k.val; rw [e01]; omega
  · funext y
    show V c main_arg1 (((cfg0.win 1).blk t).view.emb y) = V c main_arg1 y
    refine congrArg (V c main_arg1) (funext fun a => Fin.ext ?_)
    match a with
    | ⟨0, _⟩ => show win0_1.index t (0 : Fin 2) * 128 + 1 * (y 0).val = (y 0).val; rw [e10]; omega
    | ⟨1, _⟩ => show win0_1.index t (1 : Fin 2) * 384 + 1 * (y 1).val = (y 1).val; rw [e11]; omega
  · funext y
    show V c main_arg2 (((cfg0.win 2).blk t).view.emb y) = V c main_arg2 y
    refine congrArg (V c main_arg2) (funext fun a => Fin.ext ?_)
    match a with
    | ⟨0, _⟩ => show win0_2.index t (0 : Fin 1) * 384 + 1 * (y 0).val = (y 0).val; rw [e20]; omega

/-- An index of the result array is in point `t`'s block iff each coordinate is in the block's range on its axis. -/
theorem mem_block_first (t : Fin cfg0.N) (i : S50000x384.Idx) :
    i ∈ ((cfg0.win 3).blk t).view.set ↔ ∀ a : Fin 2, win0_3.index t a * S2000x384.size a ≤ (i a).val ∧ (i a).val < win0_3.index t a * S2000x384.size a + S2000x384.size a := by
  show i ∈ ((View.whole main_v33).slice (win0_3.rect t)).set ↔ _
  rw [View.set_slice_whole, Rect.mem_set_unit]
  exact Iff.rfl

/-- Every index of the result array lies in the block of the point numbered by its row divided by 2000. -/
theorem cover_first (i : S50000x384.Idx) :
    ∃ t : Fin cfg0.N, (cfg0.win 3).flush t = true ∧ i ∈ ((cfg0.win 3).blk t).view.set := by
  have hi0 : (i 0).val < 50000 := (i 0).isLt
  have hi1 : (i 1).val < 384 := (i 1).isLt
  have hN : cfg0.N = 25 := N_0
  have hlt : (i 0).val / 2000 < cfg0.N := by rw [hN]; omega
  obtain ⟨_, _, _, _, _, e30, e31⟩ := blockno_first ⟨(i 0).val / 2000, hlt⟩
  refine ⟨⟨(i 0).val / 2000, hlt⟩, flush0_3 _, ?_⟩
  rw [mem_block_first]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, hlt⟩ (1 : Fin 2) * 384 ≤ (i 1).val ∧ (i 1).val < win0_3.index ⟨(i 0).val / 2000, hlt⟩ (1 : Fin 2) * 384 + 384
    rw [e31]; omega

/-- The result array of the first region, after it: the first layer of the arrays the region found. -/
theorem final_first (c : Dev nD) :
    (dat0 (F := Ideal) V c).arrAt 3 cfg0.N = Cert.Dense.layer1 (V c main_v32) (V c main_arg1) (V c main_arg2) :=
  (dat0 V c).arrAt_eq_of_cover 3 _ (fun t _ => flushed_first V c t) cover_first

end Cert.KernelIdeal.Hand

end
-- ==== Proof.KBlocksSecond.lean ====
/-
  The second kernel region, from blocks to the whole array.

  The region's grid has 25 points. At point t the pipeline fetches rows 2000·t … 2000·t + 1999 of the 50000 × 384 input
  (the first region's result) and the whole 384 × 256 weight matrix, and writes back rows 2000·t … 2000·t + 1999 of the
  50000 × 256 result. An entry of the second layer depends on one row of the input only, so what point t writes back is
  block t of `Dense.layer2` of the arrays the region found; the 25 blocks tile the result, so the result array ends at
  `Dense.layer2` of them.
-/
import proofs.«103360_j41867341201760_1_alg».proof.Proof.Gen.KernelIdeal.Frame
import proofs.«103360_j41867341201760_1_alg».proof.Proof.KPayload
import Idealize.ShloMosaic.Lib.Pipeline.Value

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/- The buffer contents when the region is entered: a parameter, as in the region's generated frame. -/
variable (V : (c : Dev nD) → (b : Ref sig .tc) → Buf (Elt Ideal) ((c : Thread nD τ).loc b))

theorem zero_off2' : (![0, 0] : Fin 2 → Nat) = fun _ => 0 := funext fun a => by fin_cases a <;> rfl

/-- The block numbers of the three windows at a grid point: the input and the result move down the rows with the point,
    the weights stay. Decided over the 25 points. -/
theorem blockno_second : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of a block whose rows are rows of the input array, the weights being the array's: the body's stored entry
    (p, q) is the second layer's entry at that row of the array. -/
theorem rows_second (h : FVec Ideal S50000x384 .f32) (w : FVec Ideal S384x256 .f32)
    (x0 : Vec Ideal S2000x384 .f32) (x1 : Vec Ideal S384x256 .f32)
    (P : Fin 50000) (p : Fin 2000) (q : Fin 256)
    (h0 : ∀ k : Fin 384, x0 (ix2 p k) = h (ix2 P k)) (h1 : x1 = w) :
    k1_pay1 (F := Ideal) x0 x1 (ix2 p q) = Cert.Dense.layer2 h w (ix2 P q) := by
  rw [pay_second, Cert.Dense.layer2_apply, h1]
  exact congrArg (fun row => Cert.Dense.unit2 row w q) (funext h0)

/-- What point `t` writes back is block `t` of the second layer of the arrays the region found. -/
theorem flushed_second (c : Dev nD) (t : Fin cfg1.N) :
    (dat1 (F := Ideal) V c).flushed 2 t
      = ((cfg1.win 2).blk t).view.read (Elt Ideal) (Cert.Dense.layer2 (V c main_v33) (V c main_arg3)) := by
  show (cfg1.win 2).cut (grid1.coords t) ((dat1 V c).after 2 t) = _
  rw [after1_2]
  unfold out1_2
  rw [View.canon_unit_zero zero_off2']
  simp only [View.ld_unit_zero (S := S2000x384) zero_off2', View.ld_unit_zero (S := S384x256) zero_off2']
  obtain ⟨e00, e01, e10, e11, e20, e21⟩ := blockno_second t
  have ht : t.val < 25 := Nat.lt_of_lt_of_eq t.isLt (show cfg1.N = 25 from N_1)
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (ix2 p q)
    = Cert.Dense.layer2 (V c main_v33) (V c main_arg3) (((cfg1.win 2).blk t).view.emb (ix2 p q))
  have hP : t.val * 2000 + p.val < 50000 := by have := p.isLt; omega
  have hemb : ((cfg1.win 2).blk t).view.emb (ix2 p q) = ix2 (⟨t.val * 2000 + p.val, hP⟩ : Fin 50000) q := by
    funext a; apply Fin.ext
    match a with
    | ⟨0, _⟩ => show win1_2.index t (0 : Fin 2) * 2000 + 1 * p.val = t.val * 2000 + p.val; rw [e20]; omega
    | ⟨1, _⟩ => show win1_2.index t (1 : Fin 2) * 256 + 1 * q.val = q.val; rw [e21]; omega
  rw [hemb]
  refine rows_second (V c main_v33) (V c main_arg3) (iblk1 V c 0 t) (iblk1 V c 1 t) ⟨_, hP⟩ p q (fun k => ?_) ?_
  · show V c main_v33 (((cfg1.win 0).blk t).view.emb (ix2 p k)) = V c main_v33 (ix2 ⟨t.val * 2000 + p.val, hP⟩ k)
    refine congrArg (V c main_v33) (funext fun a => Fin.ext ?_)
    match a with
    | ⟨0, _⟩ => show win1_0.index t (0 : Fin 2) * 2000 + 1 * p.val = t.val * 2000 + p.val; rw [e00]; omega
    | ⟨1, _⟩ => show win1_0.index t (1 : Fin 2) * 384 + 1 * k.val = k.val; rw [e01]; omega
  · funext y
    show V c main_arg3 (((cfg1.win 1).blk t).view.emb y) = V c main_arg3 y
    refine congrArg (V c main_arg3) (funext fun a => Fin.ext ?_)
    match a with
    | ⟨0, _⟩ => show win1_1.index t (0 : Fin 2) * 384 + 1 * (y 0).val = (y 0).val; rw [e10]; omega
    | ⟨1, _⟩ => show win1_1.index t (1 : Fin 2) * 256 + 1 * (y 1).val = (y 1).val; rw [e11]; omega

/-- An index of the result array is in point `t`'s block iff each coordinate is in the block's range on its axis. -/
theorem mem_block_second (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v34).slice (win1_2.rect t)).set ↔ _
  rw [View.set_slice_whole, Rect.mem_set_unit]
  exact Iff.rfl

/-- Every index of the result array lies in the block of the point numbered by its row divided by 2000. -/
theorem cover_second (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  have hlt : (i 0).val / 2000 < cfg1.N := by rw [hN]; omega
  obtain ⟨_, _, _, _, e20, e21⟩ := blockno_second ⟨(i 0).val / 2000, hlt⟩
  refine ⟨⟨(i 0).val / 2000, hlt⟩, flush1_2 _, ?_⟩
  rw [mem_block_second]
  intro a
  match a with
  | ⟨0, _⟩ =>
    show win1_2.index ⟨(i 0).val / 2000, hlt⟩ (0 : Fin 2) * 2000 ≤ (i 0).val ∧ (i 0).val < win1_2.index ⟨(i 0).val / 2000, hlt⟩ (0 : Fin 2) * 2000 + 2000
    rw [e20]; show (i 0).val / 2000 * 2000 ≤ (i 0).val ∧ (i 0).val < (i 0).val / 2000 * 2000 + 2000; omega
  | ⟨1, _⟩ =>
    show win1_2.index ⟨(i 0).val / 2000, hlt⟩ (1 : Fin 2) * 256 ≤ (i 1).val ∧ (i 1).val < win1_2.index ⟨(i 0).val / 2000, hlt⟩ (1 : Fin 2) * 256 + 256
    rw [e21]; omega

/-- The result array of the second region, after it: the second layer of the arrays the region found. -/
theorem final_second (c : Dev nD) :
    (dat1 (F := Ideal) V c).arrAt 2 cfg1.N = Cert.Dense.layer2 (V c main_v33) (V c main_arg3) :=
  (dat1 V c).arrAt_eq_of_cover 2 _ (fun t _ => flushed_second V c t) cover_second

end Cert.KernelIdeal.Hand

end
-- ==== Proof.Network.lean ====
/-
  The whole network as one function of its six inputs, at the extended reals:

      out = finish (layer2 (layer1 (aggregate128 features) W1 b1) W2) b2,

  both aggregations with the same two normalisation factors, `invSqrtDegree` of the edges' sources and of their
  destinations. Both programs are shown to end at this function of their arguments.
-/
import proofs.«103360_j41867341201760_1_alg».proof.Proof.HostFns
import proofs.«103360_j41867341201760_1_alg».proof.Proof.DenseSpec

noncomputable section

namespace Cert.KernelIdeal.Hand

open Cert.KernelIdeal Idealize.ShloMosaic

variable [Cert.KernelIdeal.Facts₀]

/-- The network on its inputs: features, first weights and bias, second weights, last bias, edges. -/
def network (features : FVec Ideal S50000x128 .f32) (w1 : FVec Ideal S128x384 .f32) (b1 : FVec Ideal S384 .f32)
    (w2 : FVec Ideal S384x256 .f32) (b2 : FVec Ideal S256 .f32) (edges : IVec S2x800000 32) : FVec Ideal S50000x16x16 .f32 :=
  finish
    (Cert.Dense.layer2
      (Cert.Dense.layer1
        (aggregate128 features (invSqrtDegree (sources edges)) (invSqrtDegree (targets edges)) (sources edges) (targets edges))
        w1 b1)
      w2)
    (invSqrtDegree (sources edges)) (invSqrtDegree (targets edges)) (sources edges) (targets edges) b2

end Cert.KernelIdeal.Hand

end
-- ==== Proof.KValue.lean ====
/-
  The idealized kernel program ends with its result at `network` of its arguments.

  The result buffer at the return is `finish` of the second region's output array and of buffers the regions do not
  touch. The second region's output is the second layer of the first region's output and the second weights; the
  first region's output is the first layer of the first aggregation, the first weights and the first bias; and every
  other buffer read here is, by the host side's reading, a function of the launch memory.
-/
import proofs.«103360_j41867341201760_1_alg».proof.Proof.KRun
import proofs.«103360_j41867341201760_1_alg».proof.Proof.KHost
import proofs.«103360_j41867341201760_1_alg».proof.Proof.KBlocksFirst
import proofs.«103360_j41867341201760_1_alg».proof.Proof.KBlocksSecond
import proofs.«103360_j41867341201760_1_alg».proof.Proof.Network

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The first region's output array when the region ends: the first layer of the aggregated features. -/
theorem first_output (c : Dev nD) :
    W6 m ρ c (Proc.devRef .tc main_v33)
      = Cert.Dense.layer1
          (aggregate128 (m ((c : Thread nD τ).loc main_arg0)) (invSqrtDegree (sources (m ((c : Thread nD τ).loc main_arg5))))
            (invSqrtDegree (targets (m ((c : Thread nD τ).loc main_arg5)))) (sources (m ((c : Thread nD τ).loc main_arg5)))
            (targets (m ((c : Thread nD τ).loc main_arg5))))
          (m ((c : Thread nD τ).loc main_arg1)) (m ((c : Thread nD τ).loc main_arg2)) := by
  refine (W6_arr m ρ c 3).trans ((final_first (V5 m ρ) c).trans ?_)
  have e0 : V5 m ρ c main_v32 = _ := entry_v32 m ρ c
  have e1 : V5 m ρ c main_arg1 = _ := entry_arg1 m ρ c
  have e2 : V5 m ρ c main_arg2 = _ := entry_arg2 m ρ c
  rw [e0, e1, e2]

/-- The second region's output array when the region ends: the second layer of the first region's output. -/
theorem second_output (c : Dev nD) :
    W7 m ρ c (Proc.devRef .tc main_v34)
      = Cert.Dense.layer2
          (Cert.Dense.layer1
            (aggregate128 (m ((c : Thread nD τ).loc main_arg0)) (invSqrtDegree (sources (m ((c : Thread nD τ).loc main_arg5))))
              (invSqrtDegree (targets (m ((c : Thread nD τ).loc main_arg5)))) (sources (m ((c : Thread nD τ).loc main_arg5)))
              (targets (m ((c : Thread nD τ).loc main_arg5))))
            (m ((c : Thread nD τ).loc main_arg1)) (m ((c : Thread nD τ).loc main_arg2)))
          (m ((c : Thread nD τ).loc main_arg3)) := by
  refine (W7_arr m ρ c 2).trans ((final_second (V6 m ρ) c).trans ?_)
  have e0 : V6 m ρ c main_v33 = _ := first_output m ρ c
  have e1 : V6 m ρ c main_arg3 = _ := mid_arg3 m ρ c
  rw [e0, e1]

/-- The result buffer at the return is the network of the launch memory's arguments. -/
theorem result_value (c : Dev nD) :
    W8 m ρ c (Proc.devRef .tc main_v54)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [result_of_last_boundary, second_output, exit_v13, exit_v16, exit_v1, exit_v3, exit_arg4]
  rfl

/-- Every weakly fair execution of the idealized kernel program terminates without a fault, its result at the network
    of its arguments, the arguments unchanged. -/
theorem run_network : θ_run defs (onTc (τ := τ) (main (F := Ideal))) ⟨m, fun _ => 0, ρ⟩ (fun r => ∀ c : Dev nD,
      r.2.mem ((c.tc : Thread nD τ).loc main_v54)
        = network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (run_result m ρ)

end Cert.KernelIdeal.Hand

end
-- ==== Proof.RefValue.lean ====
/-
  The reference program, stage by stage, as the functions this certificate compares.

  The reference computes the first aggregation of the features, a dense layer (matrix product, bias, rectifier), a
  second matrix product, the second aggregation, the last bias and the 16 × 16 layout. Its host operations before the
  first product and after the second are the kernel program's own, word for word, so those stages are `aggregate128` and
  `finish` by unfolding. The two products are `dot_general`s; at the extended reals a `dot_general` entry is the sum over
  the contraction index of the operands' products, so the dense stages are `Dense.layer1` and `Dense.layer2` entry by
  entry.
-/
import proofs.«103360_j41867341201760_1_alg».proof.Proof.Gen.ReferenceIdeal.Run
import proofs.«103360_j41867341201760_1_alg».proof.Proof.Gen.ReferenceIdeal.Read
import proofs.«103360_j41867341201760_1_alg».proof.Proof.Gen.KernelIdeal
import proofs.«103360_j41867341201760_1_alg».proof.Proof.HostFns
import proofs.«103360_j41867341201760_1_alg».proof.Proof.DenseSpec
import proofs.«103360_j41867341201760_1_alg».proof.Proof.Network

noncomputable section

namespace Cert.ReferenceIdeal.RefValue

open Cert.ReferenceIdeal Cert.ReferenceIdeal.Read Idealize.ShloMosaic Idealize.ShloMosaic.ValueIdx Idealize.ShloMosaic.TcCoe Idealize.SL.Sem
open Cert.KernelIdeal.Hand (sources targets invSqrtDegree aggregate128 finish network)

/-! ## The dense stages at the extended reals -/

/-- The rectified, biased first product is the first layer of the aggregated features. -/
theorem stage_layer1 (x0 : (⟨S50000x128, .f32⟩ : BufTy).Contents (Elt Ideal)) (x1 : (⟨S128x384, .f32⟩ : BufTy).Contents (Elt Ideal))
    (x2 : (⟨S384, .f32⟩ : BufTy).Contents (Elt Ideal)) (x5 : (⟨S2x800000, .i32⟩ : BufTy).Contents (Elt Ideal)) :
    val_main_v37 (F := Ideal) x0 x1 x2 x5 = Cert.Dense.layer1 (val_main_v32 (F := Ideal) x0 x5) x1 x2 := by
  funext i
  obtain ⟨p, q, rfl⟩ : ∃ (p : Fin 50000) (q : Fin 384), i = ix2 p q := ⟨i 0, i 1, eq_ix2 i⟩
  have el : ∀ k : Fin 128, lidx_main_v33 (ix2 p q) k = ix2 p k := fun k => funext fun a => Fin.ext (by
    match a with
    | ⟨0, _⟩ => rfl
    | ⟨1, _⟩ => rfl)
  have er : ∀ k : Fin 128, ridx_main_v33 (ix2 p q) k = ix2 k q := fun k => funext fun a => Fin.ext (by
    match a with
    | ⟨0, _⟩ => rfl
    | ⟨1, _⟩ => rfl)
  have eb : idx_main_v34 (idx_main_v35 (ix2 p q)) = ix1 q := funext fun a => Fin.ext (by
    match a with
    | ⟨0, _⟩ => rfl)
  rw [val_main_v37_apply, val_main_v36_apply, val_main_v33_apply, val_main_v35_apply, val_main_v34_apply,
    val_main_call2_v0_apply, val_main_call2_cst_apply, Cert.Dense.layer1_apply]
  unfold Cert.Dense.unit1
  simp only [el, er, eb]
  rfl

/-- The second product is the second layer of the first layer's output. -/
theorem stage_layer2 (x0 : (⟨S50000x128, .f32⟩ : BufTy).Contents (Elt Ideal)) (x1 : (⟨S128x384, .f32⟩ : BufTy).Contents (Elt Ideal))
    (x2 : (⟨S384, .f32⟩ : BufTy).Contents (Elt Ideal)) (x3 : (⟨S384x256, .f32⟩ : BufTy).Contents (Elt Ideal))
    (x5 : (⟨S2x800000, .i32⟩ : BufTy).Contents (Elt Ideal)) :
    val_main_v38 (F := Ideal) x0 x1 x2 x3 x5 = Cert.Dense.layer2 (val_main_v37 (F := Ideal) x0 x1 x2 x5) x3 := by
  funext i
  obtain ⟨p, q, rfl⟩ : ∃ (p : Fin 50000) (q : Fin 256), i = ix2 p q := ⟨i 0, i 1, eq_ix2 i⟩
  have el : ∀ k : Fin 384, lidx_main_v38 (ix2 p q) k = ix2 p k := fun k => funext fun a => Fin.ext (by
    match a with
    | ⟨0, _⟩ => rfl
    | ⟨1, _⟩ => rfl)
  have er : ∀ k : Fin 384, ridx_main_v38 (ix2 p q) k = ix2 k q := fun k => funext fun a => Fin.ext (by
    match a with
    | ⟨0, _⟩ => rfl
    | ⟨1, _⟩ => rfl)
  rw [val_main_v38_apply, Cert.Dense.layer2_apply]
  unfold Cert.Dense.unit2
  simp only [el, er]

/-! ## The host stages: the kernel program's own operations -/

/-- The stage before the first product is the first aggregation of the features. -/
theorem stage_aggregate (x0 : (⟨S50000x128, .f32⟩ : BufTy).Contents (Elt Ideal)) (x5 : (⟨S2x800000, .i32⟩ : BufTy).Contents (Elt Ideal)) :
    val_main_v32 (F := Ideal) x0 x5
      = aggregate128 (F := Ideal) x0 (invSqrtDegree (sources x5)) (invSqrtDegree (targets x5)) (sources x5) (targets x5) := rfl

/-- The result is `finish` of the second product. -/
theorem stage_finish (x0 : (⟨S50000x128, .f32⟩ : BufTy).Contents (Elt Ideal)) (x1 : (⟨S128x384, .f32⟩ : BufTy).Contents (Elt Ideal))
    (x2 : (⟨S384, .f32⟩ : BufTy).Contents (Elt Ideal)) (x3 : (⟨S384x256, .f32⟩ : BufTy).Contents (Elt Ideal))
    (x4 : (⟨S256, .f32⟩ : BufTy).Contents (Elt Ideal)) (x5 : (⟨S2x800000, .i32⟩ : BufTy).Contents (Elt Ideal)) :
    val_main_v58 (F := Ideal) x0 x1 x2 x3 x4 x5
      = finish (F := Ideal) (val_main_v38 (F := Ideal) x0 x1 x2 x3 x5) (invSqrtDegree (sources x5)) (invSqrtDegree (targets x5))
          (sources x5) (targets x5) x4 := rfl

/-! ## The reference's result -/

/-- The reference run's result term is the network of the launch memory's arguments. -/
theorem result_value (m : (ℓ : Loc nD τ sig) → Buf (Elt Ideal) ℓ) (c : Dev nD) :
    Cert.ReferenceIdeal.Value.res_main_v58 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [val_main_v58_eq, stage_finish, stage_layer2, stage_layer1, stage_aggregate]
  rfl

end Cert.ReferenceIdeal.RefValue

end
-- ==== Proof.lean ====
/-
  The certificate of the two-layer graph network against its reference, over the extended reals.

  Both programs compute, from node features, two weight matrices, two biases and an edge list, the same network: the
  normalised adjacency applied to the features, a dense layer with bias and rectifier, a second dense layer, the
  normalised adjacency again, the last bias, the result laid out as 16 × 16 per node. The host operations (the degree
  counts, the normalisation factors, the gathers and scatter-adds of the aggregations, the last bias and layout) are the
  same in both programs. They differ in the dense layers: the reference has two `dot_general`s with the bias and the
  rectifier between them, the kernel program two row-tiled kernel regions whose bodies multiply a block of 2000 rows
  by the whole weight matrix (after a change of float format, the identity on extended reals) into a zero accumulator.
  An entry of a matrix product depends on one row of the left factor, so the 25 row blocks each region writes back
  are the blocks of the whole product, and both programs end at the one function `network` of their arguments.

  The three frames: the two kernel programs' are the generated frame certificates; the reference's is its generated
  run with the result dropped. The idealization rewrote no operation, so nothing is owed for it. The value claim puts
  the kernel program's run (the generated launch with the result buffer named, then the regions' arrays and the host
  stretches read) beside the reference's generated run, read stage by stage.
-/
import proofs.«103360_j41867341201760_1_alg».proof.Defs
import proofs.«103360_j41867341201760_1_alg».proof.Proof.Gen.Kernel
import proofs.«103360_j41867341201760_1_alg».proof.Proof.Gen.Kernel.Frame
import proofs.«103360_j41867341201760_1_alg».proof.Proof.Gen.KernelIdeal
import proofs.«103360_j41867341201760_1_alg».proof.Proof.Gen.KernelIdeal.Frame
import proofs.«103360_j41867341201760_1_alg».proof.Proof.Gen.ReferenceIdeal
import proofs.«103360_j41867341201760_1_alg».proof.Proof.Gen.ReferenceIdeal.Run
import proofs.«103360_j41867341201760_1_alg».proof.Proof.Gen.Pre_finite_inputs
import proofs.«103360_j41867341201760_1_alg».proof.Proof.KValue
import proofs.«103360_j41867341201760_1_alg».proof.Proof.RefValue

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernel_ideal : @Cert.frame_KernelIdeal Cert.KernelIdeal.Gen.facts Cert.Pre_finite_inputs.Gen.facts :=
  fun m ρ _ => Cert.KernelIdeal.Gen.frame m ρ

theorem frame_reference_ideal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments both idealized programs end at the network of those arguments. The
    precondition is not used: the two sides are the same sums in the same arrangement. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hand.run_network m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_value, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
